-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S1x16 : Shape := ⟨2, ![1, 16]⟩
abbrev S10000x16 : Shape := ⟨2, ![10000, 16]⟩
abbrev S200x10000 : Shape := ⟨2, ![200, 10000]⟩
abbrev S400x16 : Shape := ⟨2, ![400, 16]⟩
abbrev S200x16 : Shape := ⟨2, ![200, 16]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S1x16, .f32⟩
  | .hbm, ⟨5, _⟩ => ⟨S10000x16, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S128x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S200x10000_S200x10000_0_0 : ∀ a, (![0, 0] : Fin 2 → Nat) a + S200x10000.size a ≤ S200x10000.size a
  h_S200x10000 : 0 < S200x10000.numel
  broadcasts_S1x16_S200x16 : S1x16.Broadcasts S200x16
  inb_S400x16_S200x16_0_0 : ∀ a, (![0, 0] : Fin 2 → Nat) a + S200x16.size a ≤ S400x16.size a
  h_S200x16 : 0 < S200x16.numel
  inb_S400x16_S200x16_200_0 : ∀ a, (![200, 0] : Fin 2 → Nat) a + S200x16.size a ≤ S400x16.size a
  dot_S10000x128_S128x16_S10000x16_1_0_0_1_n_n_wf : DotDims.WF S10000x128 S128x16 S10000x16 [1] [0] [0] [1] [] []
  dot_S200x10000_S10000x16_S200x16_1_0_0_1_n_n_wf : DotDims.WF S200x10000 S10000x16 S200x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S10000x16, .f32⟩
  | .hbm, ⟨6, _⟩ => ⟨S1x16, .f32⟩
  | .hbm, ⟨7, _⟩ => ⟨S10000x16, .f32⟩
  | .hbm, ⟨8, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.KBData.lean ====
/-
  The graph-convolution kernel's pipeline on one core: the arrays as the region finds them, each window's block at a
  grid point, the one branch of the body (taken at the first point only), and the two rectangles the body stores
  the output block through (rows 0–199 and rows 200–399 of the 400-row block).
-/
import proofs.«127681_g1580547969797_cont_week2b_876_5_alg».proof.Proof.Gen.Kernel.Launch
import proofs.«127681_g1580547969797_cont_week2b_876_5_alg».proof.Proof.Gen.Kernel.Skeleton
import proofs.«127681_g1580547969797_cont_week2b_876_5_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation before it,
    which writes the bias as a [1, 16] row into a buffer of its own. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation does not write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- The host operation does not write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- The host operation does not write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
/-- The host operation does not write argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or kept the previous point's (the block index had not moved), for any proof data whose array is the entry
    contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or kept the previous point's (the block index had not moved), for any proof data whose array is the entry
    contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there
    or kept the previous point's (the block index had not moved), for any proof data whose array is the entry
    contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there
    or kept the previous point's (the block index had not moved), for any proof data whose array is the entry
    contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there
    or kept the previous point's (the block index had not moved), for any proof data whose array is the entry
    contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinate: "this is point 0". -/
abbrev cond0 (i : grid0.Coords) : Prop := (Scalar.cmpi .ne (Scalar.extui (Scalar.cmpi .eq (BitVec.ofNat 32 (i 0).val) 0#32)) 0#32) = 1#1
/-- It holds at the first of the 25 points and at no other. -/
theorem hcond0 : ∀ t : Fin cfg0.N, cond0 (grid0.coords t) ↔ t.val = 0 :=
  (by decide +kernel : ∀ t : Fin grid0.N, cond0 (grid0.coords t) ↔ t.val = 0)

/-! ## The rectangles of the body's stores into the output block -/

abbrev rLo : Rect S400x16 := Rect.unit (s := S400x16) ![0, 0] S200x16.size inb_S400x16_S200x16_0_0
abbrev rHi : Rect S400x16 := Rect.unit (s := S400x16) ![200, 0] S200x16.size inb_S400x16_S200x16_200_0
abbrev rS : Rect S10000x16 := Rect.unit (s := S10000x16) ![0, 0] S10000x16.size inb_S10000x16_S10000x16_0_0

end Cert.Kernel.Hand

end
-- ==== Proof.KBRun.lean ====
/-
  The kernel body at one grid point, on any whole staging memrefs. At the first point it computes the support
  matrix x · W and stores it whole into its scratch buffer; at every point it reads the scratch back, multiplies the
  two 200-row adjacency blocks against it, adds the bias row and stores the two products as the lower and the upper
  half of the 400-row output block.
-/
import proofs.«127681_g1580547969797_cont_week2b_876_5_alg».proof.Proof.KBData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 rectangle, as a function. -/
theorem hz2 : (![0, 0] : Fin 2 → ℕ) = fun _ => 0 := by funext a; fin_cases a <;> rfl

/-- What the body's two stores leave in the output block's buffer, from the scratch's contents `s`, the bias row `b`
    and the two adjacency blocks: rows 200–399 from the second block, rows 0–199 from the first (last store first). -/
def outBlk (s : Vec F S10000x16 .f32) (b : Vec F S1x16 .f32) (a1 a2 : Vec F S200x10000 .f32) : Vec F S400x16 .f32 :=
  View.canon [⟨rHi, k0_pay4 s b a2⟩, ⟨rLo, k0_pay3 s b a1⟩]

/-- The two half-block stores tile the 400-row block, so they cover it. -/
theorem cover6 (p0 p1 : Vec F S200x16 .f32) (y : S400x16.Idx) :
    ∃ pc ∈ ([⟨rHi, p0⟩, ⟨rLo, p1⟩] : List (View.Piece (Elt F) S400x16 .f32)), y ∈ pc.1.set :=
  View.cover_of_tiled [⟨rHi, p0⟩, ⟨rLo, p1⟩] S200x16.size (by rfl) y

/-- The one whole-buffer store into the scratch covers it. -/
theorem cover7 (p : Vec F S10000x16 .f32) (y : S10000x16.Idx) :
    ∃ pc ∈ ([⟨rS, p⟩] : List (View.Piece (Elt F) S10000x16 .f32)), y ∈ pc.1.set :=
  View.cover_of_tiled [⟨rS, p⟩] S10000x16.size (by rfl) y

set_option maxHeartbeats 1000000 in
/-- The body at the first point (its branch taken): whatever the scratch and the output buffer held, the scratch ends
    at the support matrix of the staged x and W and the output buffer at `outBlk` of it; the inputs are only read. -/
theorem run_first (c : Dev nD) (E : Set ℕ) (i : grid0.Coords) (hc : cond0 i) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole)
    (x : Vec F S10000x128 .f32) (a1 a2 : Vec F S200x10000 .f32) (w : Vec F S128x16 .f32) (b : Vec F S1x16 .f32) (K : PUnit → sProp 𝕄) :
    iprop(owns (c : Thread nD τ) arg1 fullShare x ∗ owns (c : Thread nD τ) arg2 fullShare a1 ∗ owns (c : Thread nD τ) arg3 fullShare a2
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare a1 ∗ owns (c : Thread nD τ) arg3 fullShare a2
        ∗ owns (c : Thread nD τ) arg4 fullShare w ∗ owns (c : Thread nD τ) arg5 fullShare b
            ∗ owns (c : Thread nD τ) arg6 fullShare (outBlk (k0_pay1 x w) b a1 a2) ∗ owns (c : Thread nD τ) arg7 fullShare (k0_pay1 x w)) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [View.read_writes_eq_canon _ _ _ (cover6 _ _)]
    sl_unfold_words
    simp only [View.readAt_eq_ld, View.ld_unit_zero (S := S10000x128) hz2, View.ld_unit_zero (S := S128x16) hz2,
      View.ld_unit_zero (S := S1x16) hz2, View.ld_unit_zero (S := S200x10000) hz2, View.ld_unit_zero (S := S10000x16) hz2,
      View.readCov_unit_zero (S := S10000x16) _ hz2]
    rfl
  · iexists _; isplitr
    swap; · iexact H7
    ipureintro
    sl_unfold_words
    rw [View.read_writes_eq_canon _ _ _ (cover7 _), View.canon_unit_zero hz2]
    simp only [View.readAt_eq_ld, View.ld_unit_zero (S := S10000x128) hz2, View.ld_unit_zero (S := S128x16) hz2]

set_option maxHeartbeats 1000000 in
/-- The body at any later point (its branch not taken): the scratch is read and left as found, at `s`; the output buffer
    ends at `outBlk` of it. -/
theorem run_rest (c : Dev nD) (E : Set ℕ) (i : grid0.Coords) (hc : ¬cond0 i) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole)
    (x : Vec F S10000x128 .f32) (a1 a2 : Vec F S200x10000 .f32) (w : Vec F S128x16 .f32) (b : Vec F S1x16 .f32)
    (s : Vec F S10000x16 .f32) (K : PUnit → sProp 𝕄) :
    iprop(owns (c : Thread nD τ) arg1 fullShare x ∗ owns (c : Thread nD τ) arg2 fullShare a1 ∗ owns (c : Thread nD τ) arg3 fullShare a2
        ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg1 fullShare x ∗ owns (c : Thread nD τ) arg2 fullShare a1 ∗ owns (c : Thread nD τ) arg3 fullShare a2
        ∗ owns (c : Thread nD τ) arg4 fullShare w ∗ owns (c : Thread nD τ) arg5 fullShare b
            ∗ owns (c : Thread nD τ) arg6 fullShare (outBlk s b a1 a2) ∗ owns (c : Thread nD τ) arg7 fullShare s) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec (disch := exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [View.read_writes_eq_canon _ _ _ (cover6 _ _)]
    simp only [View.readAt_eq_ld, View.ld_unit_zero (S := S1x16) hz2, View.ld_unit_zero (S := S200x10000) hz2,
      View.ld_unit_zero (S := S10000x16) hz2]
    rfl
  · iexists f7; isplitr; · ipureintro; rfl
    iexact H7

end Cert.Kernel.Hand

end
-- ==== Proof.KBDats.lean ====
/-
  The pipeline's proof data on one core and its body obligation. The input windows' buffers hold their blocks and are
  left as found; the two adjacency windows read one array, each at half of its share; the scratch buffer holds the
  support matrix x · W from the end of the first point on (the invariant carried between points); the output window's
  buffer ends each point at the two half-block products over that support.
-/
import proofs.«127681_g1580547969797_cont_week2b_876_5_alg».proof.Proof.KBRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first of the 25 grid points. -/
abbrev t₀ : Fin cfg0.N := ⟨0, by decide⟩

/-- The support matrix the scratch holds once the first point has run: of x and W as staged there (both windows are
    the whole arrays at every point). -/
def supp (c : Dev nD) : Vec F S10000x16 .f32 := k0_pay1 (iblk m c 0 t₀) (iblk m c 3 t₀)

/-- The invariant before point `t`: the scratch buffer at some contents, which from point 1 on are the support matrix. -/
def scr (c : Dev nD) (t : Fin (cfg0.N + 1)) : sProp 𝕄 :=
  iprop(∃ s : Vec F S10000x16 .f32, ⌜t.val ≠ 0 → s = supp m c⌝ ∗ owns (c : Thread nD τ) (Memref.whole cc0_scratch0) fullShare s)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (supp m c) (iblk m c 4 t) (iblk m c 1 t) (iblk m c 2 t)
  Φ t := scr m c t
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = scr m c t := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (supp m c) (iblk m c 4 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- What the body is called with at point `t`: the invariant, what the core owes (nothing), and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: at the first its branch is taken and the scratch is filled; at a later one the scratch is
    found at the support matrix and left there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5, Phi_eq, Phi_eq]
  unfold scr
  iintro ⟨⟨%s, %hs, HS⟩, Ho, ⟨%d0, H0⟩, ⟨%d1, H1⟩, ⟨%d2, H2⟩, ⟨%d3, H3⟩, ⟨%d4, H4⟩, ⟨%d5, H5⟩⟩
  by_cases h0 : t.val = 0
  · have hc : cond0 (grid0.coords t) := (hcond0 t).mpr h0
    obtain rfl : t = t₀ := Fin.ext h0
    iapply (run_first c Set.univ _ hc _ _ _ _ _ _ _ _ _ _ _ _ _ _ (iblk m c 0 t₀) (iblk m c 1 t₀) (iblk m c 2 t₀) (iblk m c 3 t₀) (iblk m c 4 t₀) _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS]
    · iexists _; isplitr; · ipureintro; intro _; rfl
      iexact HS
    isplitl [Ho]; · iexact Ho
    isplitl [H0]; · iexact H0
    isplitl [H1]; · iexact H1
    isplitl [H2]; · iexact H2
    isplitl [H3]; · iexact H3
    isplitl [H4]; · iexact H4
    iexact H5
  · have hc : ¬cond0 (grid0.coords t) := fun h => h0 ((hcond0 t).mp h)
    obtain rfl : s = supp m c := hs h0
    iapply (run_rest c Set.univ _ hc _ _ _ _ _ _ _ _ _ _ _ _ _ _ (iblk m c 0 t) (iblk m c 1 t) (iblk m c 2 t) (iblk m c 3 t) (iblk m c 4 t) (supp m c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]
    · iexists _; isplitr; · ipureintro; intro _; rfl
      iexact HS
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBLaunch.lean ====
/-
  The launch of the one region and the frame. The launch hands the pipeline the five distinct buffers behind its six
  windows' arrays, each whole; the adjacency's buffer, which two input windows read at different row blocks, is dealt
  to them in two halves of its share. After the last point every array holds what the write-backs left: an input its
  entry contents, the output its 25 blocks.
-/
import proofs.«127681_g1580547969797_cont_week2b_876_5_alg».proof.Proof.KBDats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's array, held at the window's share at its entry contents, is its buffer's points-to. -/
theorem arr_pt (c : Dev nD) (w : Fin cfg0.W) :
    (((cfg0.win w).arr.view.loc (c.tc : Thread nD τ)) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The five distinct buffers behind the six windows' arrays, one by one. -/
theorem arrBufs_eq (c : Dev nD) :
    (Pipeline.arrBufs spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_arg2) ↦{fullShare} V m c main_arg2)
          ∗ (((c.tc : Thread nD τ).loc main_v0) ↦{fullShare} V m c main_v0)
          ∗ (((c.tc : Thread nD τ).loc main_v1) ↦{fullShare} V m c main_v1)) := by
  classical
  unfold Pipeline.arrBufs
  exact bigSep_eq_bigSepL_of_eq [main_arg0, main_arg1, main_arg2, main_v0, main_v1] (by decide) (by decide) _

/-- The buffers behind the arrays, each whole at the full share, make the pipeline's arrays at entry: the adjacency's
    share is split in two, one half for each of the two windows that read it. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [arr_pt m c 0, arr_pt m c 1, arr_pt m c 2, arr_pt m c 3, arr_pt m c 4, arr_pt m c 5,
    share0, share1, share2, share3, share4, share5]
  iintro ⟨H0, H1, H2, H3, H4⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  iexact H4

set_option backward.isDefEq.respectTransparency.types false in
/-- Every weakly fair execution of @main terminates, and in every final state each array of the pipeline holds what the
    library computes from the proof data and every other unscoped buffer what it held when the region was entered. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [Phi_eq, scopedRest0_eq]; unfold scr; simp only [owns_whole]
      iintro ⟨-, ⟨%f, H⟩⟩
      iexists f; isplitr; · ipureintro; intro h; exact absurd rfl h
      iexact H)
    (hout := fun c => by
      rw [Phi_eq, scopedRest0_eq]; unfold scr; simp only [owns_whole]
      iintro ⟨%s, -, H⟩
      isplitr; · iempintro
      iexists s; iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-- The run with the result array named: after the run it holds what the 25 write-backs left of the output window's
    blocks, and the four argument arrays are as launched (three are input windows' arrays, unchanged by the library's
    account of an input; the bias bypasses the region: the pipeline stages its [1, 16] copy, not it). -/
theorem run_out : θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 5,
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 3).trans (((dats m 0 c).arrAt_in 3 rfl _).trans ((A_eq m c 3).trans (V_main_arg2 m c))),
     ((h c).2 main_arg3 (Pipeline.mem_restRefs_of main_arg3 rfl (by decide))).trans (V_main_arg3 m c)⟩) (run_main m ρ)

/-- The frame: the four argument arrays end as launched. Three are input windows' arrays (unchanged by the library's
    account of an input), the bias bypasses the region (the pipeline stages its [1, 16] copy, not it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_out m ρ)

end Cert.Kernel.Hand

end
-- ==== Proof.KIData.lean ====
/-
  The graph-convolution kernel's pipeline on one core: the arrays as the region finds them, each window's block at a
  grid point, the one branch of the body (taken at the first point only), and the two rectangles the body stores
  the output block through (rows 0–199 and rows 200–399 of the 400-row block).
-/
import proofs.«127681_g1580547969797_cont_week2b_876_5_alg».proof.Proof.Gen.KernelIdeal.Launch
import proofs.«127681_g1580547969797_cont_week2b_876_5_alg».proof.Proof.Gen.KernelIdeal.Skeleton
import proofs.«127681_g1580547969797_cont_week2b_876_5_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation before it,
    which writes the bias as a [1, 16] row into a buffer of its own. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation does not write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- The host operation does not write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- The host operation does not write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
/-- The host operation does not write argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or kept the previous point's (the block index had not moved), for any proof data whose array is the entry
    contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or kept the previous point's (the block index had not moved), for any proof data whose array is the entry
    contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there
    or kept the previous point's (the block index had not moved), for any proof data whose array is the entry
    contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there
    or kept the previous point's (the block index had not moved), for any proof data whose array is the entry
    contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there
    or kept the previous point's (the block index had not moved), for any proof data whose array is the entry
    contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinate: "this is point 0". -/
abbrev cond0 (i : grid0.Coords) : Prop := (Scalar.cmpi .ne (Scalar.extui (Scalar.cmpi .eq (BitVec.ofNat 32 (i 0).val) 0#32)) 0#32) = 1#1
/-- It holds at the first of the 25 points and at no other. -/
theorem hcond0 : ∀ t : Fin cfg0.N, cond0 (grid0.coords t) ↔ t.val = 0 :=
  (by decide +kernel : ∀ t : Fin grid0.N, cond0 (grid0.coords t) ↔ t.val = 0)

/-! ## The rectangles of the body's stores into the output block -/

abbrev rLo : Rect S400x16 := Rect.unit (s := S400x16) ![0, 0] S200x16.size inb_S400x16_S200x16_0_0
abbrev rHi : Rect S400x16 := Rect.unit (s := S400x16) ![200, 0] S200x16.size inb_S400x16_S200x16_200_0
abbrev rS : Rect S10000x16 := Rect.unit (s := S10000x16) ![0, 0] S10000x16.size inb_S10000x16_S10000x16_0_0

end Cert.KernelIdeal.Hand

end
-- ==== Proof.KIRun.lean ====
/-
  The kernel body at one grid point, on any whole staging memrefs. At the first point it computes the support
  matrix x · W and stores it whole into its scratch buffer; at every point it reads the scratch back, multiplies the
  two 200-row adjacency blocks against it, adds the bias row and stores the two products as the lower and the upper
  half of the 400-row output block.
-/
import proofs.«127681_g1580547969797_cont_week2b_876_5_alg».proof.Proof.KIData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 rectangle, as a function. -/
theorem hz2 : (![0, 0] : Fin 2 → ℕ) = fun _ => 0 := by funext a; fin_cases a <;> rfl

/-- What the body's two stores leave in the output block's buffer, from the scratch's contents `s`, the bias row `b`
    and the two adjacency blocks: rows 200–399 from the second block, rows 0–199 from the first (last store first). -/
def outBlk (s : Vec F S10000x16 .f32) (b : Vec F S1x16 .f32) (a1 a2 : Vec F S200x10000 .f32) : Vec F S400x16 .f32 :=
  View.canon [⟨rHi, k0_pay4 s b a2⟩, ⟨rLo, k0_pay3 s b a1⟩]

/-- The two half-block stores tile the 400-row block, so they cover it. -/
theorem cover6 (p0 p1 : Vec F S200x16 .f32) (y : S400x16.Idx) :
    ∃ pc ∈ ([⟨rHi, p0⟩, ⟨rLo, p1⟩] : List (View.Piece (Elt F) S400x16 .f32)), y ∈ pc.1.set :=
  View.cover_of_tiled [⟨rHi, p0⟩, ⟨rLo, p1⟩] S200x16.size (by rfl) y

/-- The one whole-buffer store into the scratch covers it. -/
theorem cover7 (p : Vec F S10000x16 .f32) (y : S10000x16.Idx) :
    ∃ pc ∈ ([⟨rS, p⟩] : List (View.Piece (Elt F) S10000x16 .f32)), y ∈ pc.1.set :=
  View.cover_of_tiled [⟨rS, p⟩] S10000x16.size (by rfl) y

set_option maxHeartbeats 1000000 in
/-- The body at the first point (its branch taken): whatever the scratch and the output buffer held, the scratch ends
    at the support matrix of the staged x and W and the output buffer at `outBlk` of it; the inputs are only read. -/
theorem run_first (c : Dev nD) (E : Set ℕ) (i : grid0.Coords) (hc : cond0 i) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole)
    (x : Vec F S10000x128 .f32) (a1 a2 : Vec F S200x10000 .f32) (w : Vec F S128x16 .f32) (b : Vec F S1x16 .f32) (K : PUnit → sProp 𝕄) :
    iprop(owns (c : Thread nD τ) arg1 fullShare x ∗ owns (c : Thread nD τ) arg2 fullShare a1 ∗ owns (c : Thread nD τ) arg3 fullShare a2
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare a1 ∗ owns (c : Thread nD τ) arg3 fullShare a2
        ∗ owns (c : Thread nD τ) arg4 fullShare w ∗ owns (c : Thread nD τ) arg5 fullShare b
            ∗ owns (c : Thread nD τ) arg6 fullShare (outBlk (k0_pay1 x w) b a1 a2) ∗ owns (c : Thread nD τ) arg7 fullShare (k0_pay1 x w)) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [View.read_writes_eq_canon _ _ _ (cover6 _ _)]
    sl_unfold_words
    simp only [View.readAt_eq_ld, View.ld_unit_zero (S := S10000x128) hz2, View.ld_unit_zero (S := S128x16) hz2,
      View.ld_unit_zero (S := S1x16) hz2, View.ld_unit_zero (S := S200x10000) hz2, View.ld_unit_zero (S := S10000x16) hz2,
      View.readCov_unit_zero (S := S10000x16) _ hz2]
    rfl
  · iexists _; isplitr
    swap; · iexact H7
    ipureintro
    sl_unfold_words
    rw [View.read_writes_eq_canon _ _ _ (cover7 _), View.canon_unit_zero hz2]
    simp only [View.readAt_eq_ld, View.ld_unit_zero (S := S10000x128) hz2, View.ld_unit_zero (S := S128x16) hz2]

set_option maxHeartbeats 1000000 in
/-- The body at any later point (its branch not taken): the scratch is read and left as found, at `s`; the output buffer
    ends at `outBlk` of it. -/
theorem run_rest (c : Dev nD) (E : Set ℕ) (i : grid0.Coords) (hc : ¬cond0 i) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S400x16 .f32) (harg6 : arg6.IsWhole) (arg7 : Memref sig .tc .vmem S10000x16 .f32) (harg7 : arg7.IsWhole)
    (x : Vec F S10000x128 .f32) (a1 a2 : Vec F S200x10000 .f32) (w : Vec F S128x16 .f32) (b : Vec F S1x16 .f32)
    (s : Vec F S10000x16 .f32) (K : PUnit → sProp 𝕄) :
    iprop(owns (c : Thread nD τ) arg1 fullShare x ∗ owns (c : Thread nD τ) arg2 fullShare a1 ∗ owns (c : Thread nD τ) arg3 fullShare a2
        ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg1 fullShare x ∗ owns (c : Thread nD τ) arg2 fullShare a1 ∗ owns (c : Thread nD τ) arg3 fullShare a2
        ∗ owns (c : Thread nD τ) arg4 fullShare w ∗ owns (c : Thread nD τ) arg5 fullShare b
            ∗ owns (c : Thread nD τ) arg6 fullShare (outBlk s b a1 a2) ∗ owns (c : Thread nD τ) arg7 fullShare s) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec (disch := exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [View.read_writes_eq_canon _ _ _ (cover6 _ _)]
    simp only [View.readAt_eq_ld, View.ld_unit_zero (S := S1x16) hz2, View.ld_unit_zero (S := S200x10000) hz2,
      View.ld_unit_zero (S := S10000x16) hz2]
    rfl
  · iexists f7; isplitr; · ipureintro; rfl
    iexact H7

end Cert.KernelIdeal.Hand

end
-- ==== Proof.KIDats.lean ====
/-
  The pipeline's proof data on one core and its body obligation. The input windows' buffers hold their blocks and are
  left as found; the two adjacency windows read one array, each at half of its share; the scratch buffer holds the
  support matrix x · W from the end of the first point on (the invariant carried between points); the output window's
  buffer ends each point at the two half-block products over that support.
-/
import proofs.«127681_g1580547969797_cont_week2b_876_5_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first of the 25 grid points. -/
abbrev t₀ : Fin cfg0.N := ⟨0, by decide⟩

/-- The support matrix the scratch holds once the first point has run: of x and W as staged there (both windows are
    the whole arrays at every point). -/
def supp (c : Dev nD) : Vec F S10000x16 .f32 := k0_pay1 (iblk m c 0 t₀) (iblk m c 3 t₀)

/-- The invariant before point `t`: the scratch buffer at some contents, which from point 1 on are the support matrix. -/
def scr (c : Dev nD) (t : Fin (cfg0.N + 1)) : sProp 𝕄 :=
  iprop(∃ s : Vec F S10000x16 .f32, ⌜t.val ≠ 0 → s = supp m c⌝ ∗ owns (c : Thread nD τ) (Memref.whole cc0_scratch0) fullShare s)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (supp m c) (iblk m c 4 t) (iblk m c 1 t) (iblk m c 2 t)
  Φ t := scr m c t
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = scr m c t := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (supp m c) (iblk m c 4 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- What the body is called with at point `t`: the invariant, what the core owes (nothing), and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: at the first its branch is taken and the scratch is filled; at a later one the scratch is
    found at the support matrix and left there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5, Phi_eq, Phi_eq]
  unfold scr
  iintro ⟨⟨%s, %hs, HS⟩, Ho, ⟨%d0, H0⟩, ⟨%d1, H1⟩, ⟨%d2, H2⟩, ⟨%d3, H3⟩, ⟨%d4, H4⟩, ⟨%d5, H5⟩⟩
  by_cases h0 : t.val = 0
  · have hc : cond0 (grid0.coords t) := (hcond0 t).mpr h0
    obtain rfl : t = t₀ := Fin.ext h0
    iapply (run_first c Set.univ _ hc _ _ _ _ _ _ _ _ _ _ _ _ _ _ (iblk m c 0 t₀) (iblk m c 1 t₀) (iblk m c 2 t₀) (iblk m c 3 t₀) (iblk m c 4 t₀) _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS]
    · iexists _; isplitr; · ipureintro; intro _; rfl
      iexact HS
    isplitl [Ho]; · iexact Ho
    isplitl [H0]; · iexact H0
    isplitl [H1]; · iexact H1
    isplitl [H2]; · iexact H2
    isplitl [H3]; · iexact H3
    isplitl [H4]; · iexact H4
    iexact H5
  · have hc : ¬cond0 (grid0.coords t) := fun h => h0 ((hcond0 t).mp h)
    obtain rfl : s = supp m c := hs h0
    iapply (run_rest c Set.univ _ hc _ _ _ _ _ _ _ _ _ _ _ _ _ _ (iblk m c 0 t) (iblk m c 1 t) (iblk m c 2 t) (iblk m c 3 t) (iblk m c 4 t) (supp m c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]
    · iexists _; isplitr; · ipureintro; intro _; rfl
      iexact HS
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The launch of the one region and the frame. The launch hands the pipeline the five distinct buffers behind its six
  windows' arrays, each whole; the adjacency's buffer, which two input windows read at different row blocks, is dealt
  to them in two halves of its share. After the last point every array holds what the write-backs left: an input its
  entry contents, the output its 25 blocks.
-/
import proofs.«127681_g1580547969797_cont_week2b_876_5_alg».proof.Proof.KIDats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's array, held at the window's share at its entry contents, is its buffer's points-to. -/
theorem arr_pt (c : Dev nD) (w : Fin cfg0.W) :
    (((cfg0.win w).arr.view.loc (c.tc : Thread nD τ)) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The five distinct buffers behind the six windows' arrays, one by one. -/
theorem arrBufs_eq (c : Dev nD) :
    (Pipeline.arrBufs spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_arg2) ↦{fullShare} V m c main_arg2)
          ∗ (((c.tc : Thread nD τ).loc main_v0) ↦{fullShare} V m c main_v0)
          ∗ (((c.tc : Thread nD τ).loc main_v1) ↦{fullShare} V m c main_v1)) := by
  classical
  unfold Pipeline.arrBufs
  exact bigSep_eq_bigSepL_of_eq [main_arg0, main_arg1, main_arg2, main_v0, main_v1] (by decide) (by decide) _

/-- The buffers behind the arrays, each whole at the full share, make the pipeline's arrays at entry: the adjacency's
    share is split in two, one half for each of the two windows that read it. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [arr_pt m c 0, arr_pt m c 1, arr_pt m c 2, arr_pt m c 3, arr_pt m c 4, arr_pt m c 5,
    share0, share1, share2, share3, share4, share5]
  iintro ⟨H0, H1, H2, H3, H4⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  iexact H4

set_option backward.isDefEq.respectTransparency.types false in
/-- Every weakly fair execution of @main terminates, and in every final state each array of the pipeline holds what the
    library computes from the proof data and every other unscoped buffer what it held when the region was entered. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [Phi_eq, scopedRest0_eq]; unfold scr; simp only [owns_whole]
      iintro ⟨-, ⟨%f, H⟩⟩
      iexists f; isplitr; · ipureintro; intro h; exact absurd rfl h
      iexact H)
    (hout := fun c => by
      rw [Phi_eq, scopedRest0_eq]; unfold scr; simp only [owns_whole]
      iintro ⟨%s, -, H⟩
      isplitr; · iempintro
      iexists s; iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-- The run with the result array named: after the run it holds what the 25 write-backs left of the output window's
    blocks, and the four argument arrays are as launched (three are input windows' arrays, unchanged by the library's
    account of an input; the bias bypasses the region: the pipeline stages its [1, 16] copy, not it). -/
theorem run_out : θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 5,
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 3).trans (((dats m 0 c).arrAt_in 3 rfl _).trans ((A_eq m c 3).trans (V_main_arg2 m c))),
     ((h c).2 main_arg3 (Pipeline.mem_restRefs_of main_arg3 rfl (by decide))).trans (V_main_arg3 m c)⟩) (run_main m ρ)

/-- The frame: the four argument arrays end as launched. Three are input windows' arrays (unchanged by the library's
    account of an input), the bias bypasses the region (the pipeline stages its [1, 16] copy, not it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_out m ρ)

end Cert.KernelIdeal.Hand

end
-- ==== Proof.Spec.lean ====
/-
  The function both programs compute, index by index, over the extended reals: a graph-convolution layer
  out = adj · (x · W) + bias, with the grouping both programs use (the inner product x · W first).
-/
import Idealize.ShloMosaic.Lib.ValueIdx

noncomputable section

open scoped BigOperators

namespace Cert.Spec

open Idealize.ShloMosaic Idealize.ShloMosaic.ValueIdx

/-- Entry (k, j) of the support matrix x · W: the sum over the 128 input features. -/
def supportAt (x : (⟨2, ![10000, 128]⟩ : Shape).Idx → EReal) (w : (⟨2, ![128, 16]⟩ : Shape).Idx → EReal)
    (k : Fin 10000) (j : Fin 16) : EReal :=
  ∑ l : Fin 128, x (ix2 k l) * w (ix2 l j)

/-- Entry (r, j) of the layer's output: row r of the adjacency against column j of the support, plus the bias at j. -/
def outAt (x : (⟨2, ![10000, 128]⟩ : Shape).Idx → EReal) (a : (⟨2, ![10000, 10000]⟩ : Shape).Idx → EReal)
    (w : (⟨2, ![128, 16]⟩ : Shape).Idx → EReal) (b : (⟨1, ![16]⟩ : Shape).Idx → EReal)
    (r : Fin 10000) (j : Fin 16) : EReal :=
  (∑ k : Fin 10000, a (ix2 r k) * supportAt x w k j) + b (ix1 j)

/-- The whole output array as one function of the four argument arrays. -/
def G (x : (⟨2, ![10000, 128]⟩ : Shape).Idx → EReal) (a : (⟨2, ![10000, 10000]⟩ : Shape).Idx → EReal)
    (w : (⟨2, ![128, 16]⟩ : Shape).Idx → EReal) (b : (⟨1, ![16]⟩ : Shape).Idx → EReal) :
    (⟨2, ![10000, 16]⟩ : Shape).Idx → EReal :=
  fun i => outAt x a w b ⟨(i 0).val, idx2_lt0 i⟩ ⟨(i 1).val, idx2_lt1 i⟩

theorem G_ix2 (x : (⟨2, ![10000, 128]⟩ : Shape).Idx → EReal) (a : (⟨2, ![10000, 10000]⟩ : Shape).Idx → EReal)
    (w : (⟨2, ![128, 16]⟩ : Shape).Idx → EReal) (b : (⟨1, ![16]⟩ : Shape).Idx → EReal) (r : Fin 10000) (j : Fin 16) :
    G x a w b (ix2 r j) = outAt x a w b r j := rfl

end Cert.Spec

end
-- ==== Proof.KIPure.lean ====
import proofs.«127681_g1580547969797_cont_week2b_876_5_alg».proof.Proof.Gen.KernelIdeal.Skeleton
import proofs.«127681_g1580547969797_cont_week2b_876_5_alg».proof.Proof.Spec
import Idealize.ShloMosaic.Lib.ValueIdx
import Idealize.ShloMosaic.Lib.Pipeline.Value
import Idealize.ShloMosaic.Lib.ValueLayout
import Idealize.ShloMosaic.PureOps.Ideal.Laws

/-!
  The kernel body's three stored values read at an index, over the extended reals. The first is entry (k, j)
  of the support matrix x · W: a product into a zero accumulator is the plain sum over the 128 features, and a
  shape cast to the same shape changes nothing. The other two are one block of 200 rows of the output: the
  adjacency block's row against a column of the support, a sum over 10000 terms into a zero accumulator, plus
  the bias row [1, 16] broadcast over the 200 rows.
-/

noncomputable section

open scoped BigOperators

namespace Cert.KernelIdeal.Pure

open Cert.KernelIdeal Cert.KernelIdeal.Gen Idealize.ShloMosaic Idealize.ShloMosaic.ValueIdx

/-! ## The product x · W: operand indices at output index i and contraction index q -/

theorem lhs_xw_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_xw_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem rhs_xw_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem rhs_xw_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The product x · W into a zero accumulator, at (k, j): the sum over the 128 features. -/
theorem matmul_xw_apply (x : FVec Ideal S10000x128 .f32) (w : FVec Ideal S128x16 .f32) (k : Fin 10000) (j : Fin 16) :
    matmul (F := Ideal) dot_S10000x128_S128x16_S10000x16_1_0_0_1_n_n none x w (constant (F := Ideal) S10000x16 .f32 0x00000000#32) (ix2 k j)
      = ∑ l : Fin 128, x (ix2 k l) * w (ix2 l j) := by
  simp only [matmul]
  rw [Ideal.matmul_constant_zero_apply, ← Equiv.sum_comp (contrEquiv1 dot_S10000x128_S128x16_S10000x16_1_0_0_1_n_n 128 rfl rfl).symm]
  refine Finset.sum_congr rfl fun l _ => ?_
  have hl := contrEquiv1_symm_val dot_S10000x128_S128x16_S10000x16_1_0_0_1_n_n 128 rfl rfl l
  have el : dot_S10000x128_S128x16_S10000x16_1_0_0_1_n_n.lhsIdx (ix2 k j) ((contrEquiv1 dot_S10000x128_S128x16_S10000x16_1_0_0_1_n_n 128 rfl rfl).symm l) = ix2 k l := funext fun a => Fin.ext (by
    match a with
    | ⟨0, _⟩ => exact lhs_xw_0 _ _
    | ⟨1, _⟩ => exact (lhs_xw_1 _ _).trans hl)
  have er : dot_S10000x128_S128x16_S10000x16_1_0_0_1_n_n.rhsIdx (ix2 k j) ((contrEquiv1 dot_S10000x128_S128x16_S10000x16_1_0_0_1_n_n 128 rfl rfl).symm l) = ix2 l j := funext fun a => Fin.ext (by
    match a with
    | ⟨0, _⟩ => exact (rhs_xw_0 _ _).trans hl
    | ⟨1, _⟩ => exact rhs_xw_1 _ _)
  rw [el, er]

/-- The first stored value at (k, j) is the support matrix's entry. -/
theorem pay1_apply (x : Vec Ideal S10000x128 .f32) (w : Vec Ideal S128x16 .f32) (k : Fin 10000) (j : Fin 16) :
    k0_pay1 (F := Ideal) x w (ix2 k j) = Cert.Spec.supportAt x w k j := by
  unfold k0_pay1
  rw [shapeCast_self]
  exact matmul_xw_apply x w k j

/-! ## The product of an adjacency block with the support: operand indices -/

theorem lhs_as_0 (i : S200x16.Idx) (q : dot_S200x10000_S10000x16_S200x16_1_0_0_1_n_n.contr.Idx) :
    (dot_S200x10000_S10000x16_S200x16_1_0_0_1_n_n.lhsIdx i q 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
theorem lhs_as_1 (i : S200x16.Idx) (q : dot_S200x10000_S10000x16_S200x16_1_0_0_1_n_n.contr.Idx) :
    (dot_S200x10000_S10000x16_S200x16_1_0_0_1_n_n.lhsIdx i q 1).val = (q ⟨0, by decide⟩).val :=
  dot_S200x10000_S10000x16_S200x16_1_0_0_1_n_n.lhsIdx_val_of_single rfl i q
theorem rhs_as_0 (i : S200x16.Idx) (q : dot_S200x10000_S10000x16_S200x16_1_0_0_1_n_n.contr.Idx) :
    (dot_S200x10000_S10000x16_S200x16_1_0_0_1_n_n.rhsIdx i q 0).val = (q ⟨0, by decide⟩).val :=
  dot_S200x10000_S10000x16_S200x16_1_0_0_1_n_n.rhsIdx_val_of_single rfl i q
theorem rhs_as_1 (i : S200x16.Idx) (q : dot_S200x10000_S10000x16_S200x16_1_0_0_1_n_n.contr.Idx) :
    (dot_S200x10000_S10000x16_S200x16_1_0_0_1_n_n.rhsIdx i q 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

/-- A block of 200 adjacency rows against the support into a zero accumulator, at (r, j): the sum over the
    10000 rows of the support. -/
theorem matmul_as_apply (a : FVec Ideal S200x10000 .f32) (s : FVec Ideal S10000x16 .f32) (r : Fin 200) (j : Fin 16) :
    matmul (F := Ideal) dot_S200x10000_S10000x16_S200x16_1_0_0_1_n_n none a s (constant (F := Ideal) S200x16 .f32 0x00000000#32) (ix2 r j)
      = ∑ k : Fin 10000, a (ix2 r k) * s (ix2 k j) := by
  simp only [matmul]
  rw [Ideal.matmul_constant_zero_apply, ← Equiv.sum_comp (contrEquiv1 dot_S200x10000_S10000x16_S200x16_1_0_0_1_n_n 10000 rfl rfl).symm]
  refine Finset.sum_congr rfl fun k _ => ?_
  have hk := contrEquiv1_symm_val dot_S200x10000_S10000x16_S200x16_1_0_0_1_n_n 10000 rfl rfl k
  have el : dot_S200x10000_S10000x16_S200x16_1_0_0_1_n_n.lhsIdx (ix2 r j) ((contrEquiv1 dot_S200x10000_S10000x16_S200x16_1_0_0_1_n_n 10000 rfl rfl).symm k) = ix2 r k := funext fun a => Fin.ext (by
    match a with
    | ⟨0, _⟩ => exact lhs_as_0 _ _
    | ⟨1, _⟩ => exact (lhs_as_1 _ _).trans hk)
  have er : dot_S200x10000_S10000x16_S200x16_1_0_0_1_n_n.rhsIdx (ix2 r j) ((contrEquiv1 dot_S200x10000_S10000x16_S200x16_1_0_0_1_n_n 10000 rfl rfl).symm k) = ix2 k j := funext fun a => Fin.ext (by
    match a with
    | ⟨0, _⟩ => exact (rhs_as_0 _ _).trans hk
    | ⟨1, _⟩ => exact rhs_as_1 _ _)
  rw [el, er]

/-- The bias row broadcast over the 200 rows of a block reads, at (r, j), the bias row at j. -/
theorem bias_apply (b : Vec Ideal S1x16 .f32) (r : Fin 200) (j : Fin 16) :
    broadcastTo S200x16 (k0_pay2 (F := Ideal) b) broadcasts_S1x16_S200x16 (ix2 r j) = b (ix2 (0 : Fin 1) j) := by
  unfold k0_pay2
  rw [shapeCast_self]
  exact broadcastTo_1b_ab_apply b broadcasts_S1x16_S200x16 r j

/-- The second stored value, the first block of 200 output rows, at (r, j). -/
theorem pay3_apply (s : Vec Ideal S10000x16 .f32) (b : Vec Ideal S1x16 .f32) (a : Vec Ideal S200x10000 .f32) (r : Fin 200) (j : Fin 16) :
    k0_pay3 (F := Ideal) s b a (ix2 r j) = (∑ k : Fin 10000, a (ix2 r k) * s (ix2 k j)) + b (ix2 (0 : Fin 1) j) := by
  unfold k0_pay3
  rw [addf_apply, matmul_as_apply, bias_apply]

/-- The third stored value, the second block of 200 output rows, at (r, j). -/
theorem pay4_apply (s : Vec Ideal S10000x16 .f32) (b : Vec Ideal S1x16 .f32) (a : Vec Ideal S200x10000 .f32) (r : Fin 200) (j : Fin 16) :
    k0_pay4 (F := Ideal) s b a (ix2 r j) = (∑ k : Fin 10000, a (ix2 r k) * s (ix2 k j)) + b (ix2 (0 : Fin 1) j) := by
  unfold k0_pay4
  rw [addf_apply, matmul_as_apply, bias_apply]

end Cert.KernelIdeal.Pure

end
-- ==== Proof.KIValue.lean ====
import proofs.«127681_g1580547969797_cont_week2b_876_5_alg».proof.Proof.KIDats
import proofs.«127681_g1580547969797_cont_week2b_876_5_alg».proof.Proof.KIPure
import proofs.«127681_g1580547969797_cont_week2b_876_5_alg».proof.Proof.Spec
import Idealize.ShloMosaic.Lib.Pipeline.Value
import Idealize.ShloMosaic.Lib.ValueIdx
import Idealize.ShloMosaic.Lib.ValueLayout
import Idealize.ShloMosaic.Lib.StableHlo.Run

/-!
  The result array of the idealized kernel after its 25 grid points is the specification G of the four argument
  arrays. Point t writes back rows 400·t … 400·t + 399 of the output: its lower half is the adjacency block of rows
  400·t … 400·t + 199 against the support matrix, its upper half the block of rows 400·t + 200 … 400·t + 399 against
  it, each plus the bias row; the support matrix is x · W of the whole arrays x and W, and the bias row is the bias
  vector reshaped to [1, 16]. So output row R is adjacency row R against the support plus the bias, and the 25 blocks
  of 400 rows cover the 10000 rows.
-/

set_option maxRecDepth 16384

noncomputable section

open scoped BigOperators

namespace Cert.KernelIdeal.HandValue

open Cert.KernelIdeal Cert.KernelIdeal.Gen Cert.KernelIdeal.Hand Cert.KernelIdeal.Pure
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The argument arrays and the specification on them -/

/-- The node features x on core c, as launched. -/
abbrev xArr (c : Dev nD) : S10000x128.Idx → EReal := m ((c.tc : Thread nD τ).loc main_arg0)
/-- The adjacency matrix on core c, as launched. -/
abbrev adjArr (c : Dev nD) : S10000x10000.Idx → EReal := m ((c.tc : Thread nD τ).loc main_arg1)
/-- The weights W on core c, as launched. -/
abbrev wArr (c : Dev nD) : S128x16.Idx → EReal := m ((c.tc : Thread nD τ).loc main_arg2)
/-- The bias vector on core c, as launched. -/
abbrev biasArr (c : Dev nD) : S16.Idx → EReal := m ((c.tc : Thread nD τ).loc main_arg3)
/-- The specification of the four arrays. -/
abbrev specArr (c : Dev nD) : S10000x16.Idx → EReal := Cert.Spec.G (xArr m c) (adjArr m c) (wArr m c) (biasArr m c)

/-! ## The block indices over the grid -/

/-- The printed index maps, decided over the 25 points: x, W and the bias row are one block; the two adjacency
    windows take the even and the odd blocks of 200 rows; the output takes block t of 400 rows. -/
theorem index_facts : ∀ t : Fin cfg0.N,
    win0_0.index t (0 : Fin 2) = 0 ∧ win0_0.index t (1 : Fin 2) = 0
    ∧ win0_1.index t (0 : Fin 2) = 2 * t.val ∧ win0_1.index t (1 : Fin 2) = 0
    ∧ win0_2.index t (0 : Fin 2) = 2 * t.val + 1 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks, read off the arrays -/

/-- The x window's block at any point is the whole array. -/
theorem xblk_apply (c : Dev nD) (t : Fin cfg0.N) (k : Fin 10000) (l : Fin 128) :
    (iblk m c 0 t : Vec Ideal S10000x128 .f32) (ix2 k l) = xArr m c (ix2 k l) := by
  obtain ⟨e0, e1, -⟩ := index_facts t
  unfold iblk
  rw [View.read_apply]
  show V m c main_arg0 _ = _
  rw [V_main_arg0]
  show m ((c : Thread nD τ).loc main_arg0) _ = m ((c.tc : Thread nD τ).loc main_arg0) _
  congr 1
  funext a; apply Fin.ext
  match a with
  | ⟨0, _⟩ => show win0_0.index t (0 : Fin 2) * 10000 + 1 * k.val = k.val; omega
  | ⟨1, _⟩ => show win0_0.index t (1 : Fin 2) * 128 + 1 * l.val = l.val; omega

/-- The W window's block at any point is the whole array. -/
theorem wblk_apply (c : Dev nD) (t : Fin cfg0.N) (l : Fin 128) (j : Fin 16) :
    (iblk m c 3 t : Vec Ideal S128x16 .f32) (ix2 l j) = wArr m c (ix2 l j) := by
  obtain ⟨-, -, -, -, -, -, e0, e1, -⟩ := index_facts t
  unfold iblk
  rw [View.read_apply]
  show V m c main_arg2 _ = _
  rw [V_main_arg2]
  show m ((c : Thread nD τ).loc main_arg2) _ = m ((c.tc : Thread nD τ).loc main_arg2) _
  congr 1
  funext a; apply Fin.ext
  match a with
  | ⟨0, _⟩ => show win0_3.index t (0 : Fin 2) * 128 + 1 * l.val = l.val; omega
  | ⟨1, _⟩ => show win0_3.index t (1 : Fin 2) * 16 + 1 * j.val = j.val; omega

/-- The first adjacency window's block at point t is rows 400·t … 400·t + 199 of the adjacency matrix. -/
theorem adj1blk_apply (c : Dev nD) (t : Fin cfg0.N) (r : Fin 200) (k R : Fin 10000) (hR : R.val = 400 * t.val + r.val) :
    (iblk m c 1 t : Vec Ideal S200x10000 .f32) (ix2 r k) = adjArr m c (ix2 R k) := by
  obtain ⟨-, -, e0, e1, -⟩ := index_facts t
  unfold iblk
  rw [View.read_apply]
  show V m c main_arg1 _ = _
  rw [V_main_arg1]
  show m ((c : Thread nD τ).loc main_arg1) _ = m ((c.tc : Thread nD τ).loc main_arg1) _
  congr 1
  funext a; apply Fin.ext
  match a with
  | ⟨0, _⟩ => show win0_1.index t (0 : Fin 2) * 200 + 1 * r.val = R.val; omega
  | ⟨1, _⟩ => show win0_1.index t (1 : Fin 2) * 10000 + 1 * k.val = k.val; omega

/-- The second adjacency window's block at point t is rows 400·t + 200 … 400·t + 399 of the adjacency matrix. -/
theorem adj2blk_apply (c : Dev nD) (t : Fin cfg0.N) (r : Fin 200) (k R : Fin 10000) (hR : R.val = 400 * t.val + 200 + r.val) :
    (iblk m c 2 t : Vec Ideal S200x10000 .f32) (ix2 r k) = adjArr m c (ix2 R k) := by
  obtain ⟨-, -, -, -, e0, e1, -⟩ := index_facts t
  unfold iblk
  rw [View.read_apply]
  show V m c main_arg1 _ = _
  rw [V_main_arg1]
  show m ((c : Thread nD τ).loc main_arg1) _ = m ((c.tc : Thread nD τ).loc main_arg1) _
  congr 1
  funext a; apply Fin.ext
  match a with
  | ⟨0, _⟩ => show win0_2.index t (0 : Fin 2) * 200 + 1 * r.val = R.val; omega
  | ⟨1, _⟩ => show win0_2.index t (1 : Fin 2) * 10000 + 1 * k.val = k.val; omega

/-- The bias row's buffer, as the region finds it: the bias vector reshaped to [1, 16] by the host. -/
theorem V_biasRow (c : Dev nD) :
    (V m c main_v0 : S1x16.Idx → EReal) = shapeCast S1x16 (biasArr m c) shapeCasts_S16_S1x16 := by
  dsimp only [V, hostOps0]
  after_results
  rfl

/-- The bias window's block at any point is that row: at (0, j) the bias at j. -/
theorem biasblk_apply (c : Dev nD) (t : Fin cfg0.N) (j : Fin 16) :
    (iblk m c 4 t : Vec Ideal S1x16 .f32) (ix2 (0 : Fin 1) j) = biasArr m c (ix1 j) := by
  obtain ⟨-, -, -, -, -, -, -, -, e0, e1, -⟩ := index_facts t
  unfold iblk
  rw [View.read_apply]
  show (V m c main_v0 : S1x16.Idx → EReal) _ = _
  rw [V_biasRow]
  refine Eq.trans (congrArg (shapeCast S1x16 (biasArr m c) shapeCasts_S16_S1x16) ?_) (shapeCast_a_1a_apply (biasArr m c) shapeCasts_S16_S1x16 (0 : Fin 1) j)
  funext a; apply Fin.ext
  match a with
  | ⟨0, _⟩ => show win0_4.index t (0 : Fin 2) * 1 + 1 * 0 = 0; omega
  | ⟨1, _⟩ => show win0_4.index t (1 : Fin 2) * 16 + 1 * j.val = j.val; omega

/-! ## The support matrix and the output block at an index -/

/-- The support matrix the scratch holds is x · W of the whole arrays. -/
theorem supp_apply (c : Dev nD) (k : Fin 10000) (j : Fin 16) :
    supp m c (ix2 k j) = Cert.Spec.supportAt (xArr m c) (wArr m c) k j := by
  unfold supp
  refine (pay1_apply (iblk m c 0 t₀) (iblk m c 3 t₀) k j).trans ?_
  unfold Cert.Spec.supportAt
  exact Finset.sum_congr rfl fun l _ => congrArg₂ (· * ·) (xblk_apply m c t₀ k l) (wblk_apply m c t₀ l j)

/-- Rows 0–199 of the output block are the first product plus the bias row: the later store, of rows 200–399,
    does not reach them. -/
theorem outBlk_lo (s : Vec Ideal S10000x16 .f32) (b : Vec Ideal S1x16 .f32) (a1 a2 : Vec Ideal S200x10000 .f32)
    (r : Fin 200) (j : Fin 16) (p : Fin 400) (hp : p.val = r.val) :
    outBlk s b a1 a2 (ix2 p j) = k0_pay3 (F := Ideal) s b a1 (ix2 r j) := by
  unfold outBlk
  rw [View.canon_cons_of_not_mem _ _ (by
    rw [Rect.mem_set_unit]
    intro h
    have h0 : 200 ≤ p.val ∧ p.val < 200 + 200 := h 0
    have := r.isLt
    omega)]
  have e : (ix2 p j : S400x16.Idx) = rLo.emb (ix2 r j) := by
    funext a; apply Fin.ext
    match a with
    | ⟨0, _⟩ => show p.val = 0 + 1 * r.val; omega
    | ⟨1, _⟩ => show j.val = 0 + 1 * j.val; omega
  rw [e]
  exact View.canon_cons_emb (Val := Elt Ideal) (e := .f32) rLo (k0_pay3 (F := Ideal) s b a1) [] (ix2 r j)

/-- Rows 200–399 of the output block are the second product plus the bias row: the last store. -/
theorem outBlk_hi (s : Vec Ideal S10000x16 .f32) (b : Vec Ideal S1x16 .f32) (a1 a2 : Vec Ideal S200x10000 .f32)
    (r : Fin 200) (j : Fin 16) (p : Fin 400) (hp : p.val = 200 + r.val) :
    outBlk s b a1 a2 (ix2 p j) = k0_pay4 (F := Ideal) s b a2 (ix2 r j) := by
  unfold outBlk
  have e : (ix2 p j : S400x16.Idx) = rHi.emb (ix2 r j) := by
    funext a; apply Fin.ext
    match a with
    | ⟨0, _⟩ => show p.val = 200 + 1 * r.val; omega
    | ⟨1, _⟩ => show j.val = 0 + 1 * j.val; omega
  rw [e]
  exact View.canon_cons_emb (Val := Elt Ideal) (e := .f32) rHi (k0_pay4 (F := Ideal) s b a2) _ (ix2 r j)

/-- One element of the output block at the point numbered tv, against the specification at the array index it is
    written back to: block row y₀ goes to array row 400·tv + y₀. Stated over any scratch contents, bias row and
    adjacency blocks that read the arrays as the windows do. -/
theorem block_point (x0 : S10000x128.Idx → EReal) (x1 : S10000x10000.Idx → EReal) (x2 : S128x16.Idx → EReal)
    (x3 : S16.Idx → EReal) (s : Vec Ideal S10000x16 .f32) (b : Vec Ideal S1x16 .f32) (a1 a2 : Vec Ideal S200x10000 .f32)
    (tv : ℕ)
    (hs : ∀ (k : Fin 10000) (j : Fin 16), s (ix2 k j) = Cert.Spec.supportAt x0 x2 k j)
    (hb : ∀ j : Fin 16, b (ix2 (0 : Fin 1) j) = x3 (ix1 j))
    (ha1 : ∀ (r : Fin 200) (k R : Fin 10000), R.val = 400 * tv + r.val → a1 (ix2 r k) = x1 (ix2 R k))
    (ha2 : ∀ (r : Fin 200) (k R : Fin 10000), R.val = 400 * tv + 200 + r.val → a2 (ix2 r k) = x1 (ix2 R k))
    (y : S400x16.Idx) (i : S10000x16.Idx) (hi0 : (i 0).val = 400 * tv + (y 0).val) (hi1 : (i 1).val = (y 1).val) :
    outBlk s b a1 a2 y = Cert.Spec.G x0 x1 x2 x3 i := by
  obtain ⟨p, q, rfl⟩ : ∃ (p : Fin 400) (q : Fin 16), y = ix2 p q := ⟨y 0, y 1, eq_ix2 y⟩
  obtain ⟨R, j, rfl⟩ : ∃ (R : Fin 10000) (j : Fin 16), i = ix2 R j := ⟨i 0, i 1, eq_ix2 i⟩
  have hR : R.val = 400 * tv + p.val := hi0
  obtain rfl : j = q := Fin.ext hi1
  rw [Cert.Spec.G_ix2]
  unfold Cert.Spec.outAt
  by_cases hp : p.val < 200
  · rw [outBlk_lo s b a1 a2 ⟨p.val, hp⟩ j p rfl, pay3_apply, hb]
    refine congrArg (· + x3 (ix1 j)) (Finset.sum_congr rfl fun k _ => ?_)
    rw [ha1 ⟨p.val, hp⟩ k R hR, hs]
  · have hp' : p.val - 200 < 200 := by have := p.isLt; omega
    rw [outBlk_hi s b a1 a2 ⟨p.val - 200, hp'⟩ j p (by show p.val = 200 + (p.val - 200); omega), pay4_apply, hb]
    refine congrArg (· + x3 (ix1 j)) (Finset.sum_congr rfl fun k _ => ?_)
    rw [ha2 ⟨p.val - 200, hp'⟩ k R (by show R.val = 400 * tv + 200 + (p.val - 200); omega), hs]

/-! ## What a point writes back, the cover, and the array after the run -/

/-- What point t writes back is block t of the specification of the argument arrays. -/
theorem flushed_eq (c : Dev nD) (t : Fin cfg0.N) :
    (dats (F := Ideal) m 0 c).flushed 5 t = ((cfg0.win 5).blk t).view.read (Elt Ideal) (specArr m c) := by
  show (cfg0.win 5).cut (grid0.coords t) ((dats m 0 c).after 5 t) = _
  rw [after5]
  obtain ⟨-, -, -, -, -, -, -, -, -, -, e0, e1⟩ := index_facts t
  funext y
  show outBlk (supp m c) (iblk m c 4 t) (iblk m c 1 t) (iblk m c 2 t) ((cfg0.win 5).xinj (grid0.coords t) y)
    = specArr m c (((cfg0.win 5).blk t).view.emb y)
  refine block_point (xArr m c) (adjArr m c) (wArr m c) (biasArr m c) (supp m c) (iblk m c 4 t) (iblk m c 1 t) (iblk m c 2 t) t.val
    (supp_apply m c) (biasblk_apply m c t) (adj1blk_apply m c t) (adj2blk_apply m c t) _ _ ?_ ?_
  · show win0_5.index t (0 : Fin 2) * 400 + 1 * (y 0).val = 400 * t.val + (y 0).val; omega
  · show win0_5.index t (1 : Fin 2) * 16 + 1 * (y 1).val = (y 1).val; omega

/-- An index of the output array is in point t's block iff each coordinate is in the block's range on its axis. -/
theorem mem_blk (t : Fin cfg0.N) (i : S10000x16.Idx) :
    i ∈ ((cfg0.win 5).blk t).view.set ↔ ∀ a : Fin 2, win0_5.index t a * S400x16.size a ≤ (i a).val ∧ (i a).val < win0_5.index t a * S400x16.size a + S400x16.size a := by
  show i ∈ ((View.whole main_v1).slice (win0_5.rect t)).set ↔ _
  rw [View.set_slice_whole, Rect.mem_set_unit]
  exact Iff.rfl

/-- The 25 blocks of 400 rows cover the 10000 rows: row R is in the block of point R / 400. -/
theorem cover (i : S10000x16.Idx) :
    ∃ t : Fin cfg0.N, (cfg0.win 5).flush t = true ∧ i ∈ ((cfg0.win 5).blk t).view.set := by
  have hi0 : (i 0).val < 10000 := (i 0).isLt
  have hi1 : (i 1).val < 16 := (i 1).isLt
  have hN : grid0.N = 25 := N_0
  have ht : (i 0).val / 400 < cfg0.N := by show (i 0).val / 400 < grid0.N; omega
  obtain ⟨-, -, -, -, -, -, -, -, -, -, e0, e1⟩ := index_facts ⟨(i 0).val / 400, ht⟩
  have e0' : win0_5.index ⟨(i 0).val / 400, ht⟩ (0 : Fin 2) = (i 0).val / 400 := e0
  refine ⟨⟨(i 0).val / 400, ht⟩, flush0_5 _, ?_⟩
  rw [mem_blk]
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    omega
  | ⟨1, _⟩ =>
    show win0_5.index ⟨(i 0).val / 400, ht⟩ (1 : Fin 2) * 16 ≤ (i 1).val ∧ (i 1).val < win0_5.index ⟨(i 0).val / 400, ht⟩ (1 : Fin 2) * 16 + 16
    omega

/-- The result array after the 25 points is the specification of the four argument arrays as launched. -/
theorem final (c : Dev nD) :
    (dats (F := Ideal) m 0 c).arrAt 5 cfg0.N
      = Cert.Spec.G (m ((c.tc : Thread nD τ).loc main_arg0)) (m ((c.tc : Thread nD τ).loc main_arg1))
          (m ((c.tc : Thread nD τ).loc main_arg2)) (m ((c.tc : Thread nD τ).loc main_arg3)) :=
  (dats (F := Ideal) m 0 c).arrAt_eq_of_cover 5 (specArr m c) (fun t _ => flushed_eq m c t) cover

end Cert.KernelIdeal.HandValue

end
-- ==== Proof.RefSide.lean ====
import proofs.«127681_g1580547969797_cont_week2b_876_5_alg».proof.Proof.Gen.ReferenceIdeal.Read
import proofs.«127681_g1580547969797_cont_week2b_876_5_alg».proof.Proof.Spec
import Idealize.ShloMosaic.Lib.ValueIdx
import Idealize.ShloMosaic.PureOps.Ideal.Laws

/-!
  The reference program's result is the specification G: read at an index (r, j), the last operation adds
  the second product's entry, a sum over the 10000 rows of the support matrix, each of which is a sum over
  the 128 input features, to the bias at j (carried there by two broadcasts).
-/

noncomputable section

open scoped BigOperators

namespace Cert.ReferenceIdeal.RefValue

open Cert.ReferenceIdeal Cert.ReferenceIdeal.Read Idealize.ShloMosaic Idealize.ShloMosaic.ValueIdx

/-- The first product's left operand index at output (k, j) and feature l is (k, l). -/
theorem lidx0_ix2 (k : Fin 10000) (j : Fin 16) (l : Fin 128) : lidx_main_v0 (ix2 k j) l = ix2 k l :=
  funext fun a => Fin.ext (by match a with | ⟨0, _⟩ => rfl | ⟨1, _⟩ => rfl)

/-- The first product's right operand index at output (k, j) and feature l is (l, j). -/
theorem ridx0_ix2 (k : Fin 10000) (j : Fin 16) (l : Fin 128) : ridx_main_v0 (ix2 k j) l = ix2 l j :=
  funext fun a => Fin.ext (by match a with | ⟨0, _⟩ => rfl | ⟨1, _⟩ => rfl)

/-- The second product's left operand index at output (r, j) and row k of the support is (r, k). -/
theorem lidx1_ix2 (r : Fin 10000) (j : Fin 16) (k : Fin 10000) : lidx_main_v1 (ix2 r j) k = ix2 r k :=
  funext fun a => Fin.ext (by match a with | ⟨0, _⟩ => rfl | ⟨1, _⟩ => rfl)

/-- The second product's right operand index at output (r, j) and row k of the support is (k, j). -/
theorem ridx1_ix2 (r : Fin 10000) (j : Fin 16) (k : Fin 10000) : ridx_main_v1 (ix2 r j) k = ix2 k j :=
  funext fun a => Fin.ext (by match a with | ⟨0, _⟩ => rfl | ⟨1, _⟩ => rfl)

/-- The two broadcasts of the bias read, at output (r, j), the bias at j. -/
theorem bidx_ix2 (r : Fin 10000) (j : Fin 16) : idx_main_v2 (idx_main_v3 (ix2 r j)) = ix1 j :=
  funext fun a => Fin.ext (by match a with | ⟨0, _⟩ => rfl)

/-- The support matrix the reference computes first, at (k, j). -/
theorem support_ix2 (x0 : (⟨S10000x128, .f32⟩ : BufTy).Contents (Elt Ideal)) (x2 : (⟨S128x16, .f32⟩ : BufTy).Contents (Elt Ideal))
    (k : Fin 10000) (j : Fin 16) :
    val_main_v0 (F := Ideal) x0 x2 (ix2 k j) = Cert.Spec.supportAt x0 x2 k j := by
  rw [val_main_v0_apply]
  unfold Cert.Spec.supportAt
  refine Finset.sum_congr rfl fun l _ => ?_
  rw [lidx0_ix2, ridx0_ix2]

/-- The reference's result is the specification. -/
theorem ref_eq (x0 : (⟨S10000x128, .f32⟩ : BufTy).Contents (Elt Ideal)) (x1 : (⟨S10000x10000, .f32⟩ : BufTy).Contents (Elt Ideal))
    (x2 : (⟨S128x16, .f32⟩ : BufTy).Contents (Elt Ideal)) (x3 : (⟨S16, .f32⟩ : BufTy).Contents (Elt Ideal)) :
    Cert.ReferenceIdeal.Read.val_main_v4 (F := Ideal) x0 x1 x2 x3 = Cert.Spec.G x0 x1 x2 x3 := by
  funext i
  obtain ⟨r, j, rfl⟩ : ∃ (r : Fin 10000) (j : Fin 16), i = ix2 r j := ⟨i 0, i 1, eq_ix2 i⟩
  rw [Cert.Spec.G_ix2, val_main_v4_apply, val_main_v1_apply, val_main_v3_apply, val_main_v2_apply, bidx_ix2]
  unfold Cert.Spec.outAt
  show (∑ k : Fin 10000, _) + _ = _
  refine congrArg (· + x3 (ix1 j)) (Finset.sum_congr rfl fun k _ => ?_)
  rw [lidx1_ix2, ridx1_ix2, support_ix2]

end Cert.ReferenceIdeal.RefValue

end
-- ==== Proof.lean ====
/-
  A graph-convolution layer over the extended reals: out = adj · (x · W) + bias, for x : f32[10000, 128],
  adj : f32[10000, 10000], W : f32[128, 16], bias : f32[16].

  The kernel is ONE pipelined region of 25 grid points. At the first point it multiplies the whole x by the whole W
  into a scratch buffer (the support matrix, 10000 × 16), which stays there for every later point. At point t it reads
  two blocks of 200 adjacency rows — rows 400t … 400t+199 and rows 400t+200 … 400t+399, through two windows on the ONE
  adjacency array —, multiplies each against the support, adds the bias row, and stores the two products as the lower
  and the upper half of output block t (rows 400t … 400t+399). The reference is jnp's two matrix products and a
  broadcast add. Both sides are the same double sum with the same grouping — entry (r, j) is
  Σ_k adj[r, k] · (Σ_l x[k, l] · W[l, j]) + bias[j] — so no law of the extended reals beyond reading each matrix product
  as its sum is needed, and the precondition (finite inputs) is never opened.

  The three frames: the two kernel programs by the pipeline's launch theorem for windows that share an array (the
  adjacency's share is dealt in halves to its two windows), with the scratch's contents carried as the invariant
  between points; the reference by its run. The idealization rewrote nothing, so `preserves` is `True`.
-/
import proofs.«127681_g1580547969797_cont_week2b_876_5_alg».proof.Defs
import proofs.«127681_g1580547969797_cont_week2b_876_5_alg».proof.Proof.Gen.Kernel
import proofs.«127681_g1580547969797_cont_week2b_876_5_alg».proof.Proof.Gen.KernelIdeal
import proofs.«127681_g1580547969797_cont_week2b_876_5_alg».proof.Proof.Gen.ReferenceIdeal
import proofs.«127681_g1580547969797_cont_week2b_876_5_alg».proof.Proof.Gen.Pre_finite_inputs
import proofs.«127681_g1580547969797_cont_week2b_876_5_alg».proof.Proof.Gen.ReferenceIdeal.Run
import proofs.«127681_g1580547969797_cont_week2b_876_5_alg».proof.Proof.KBLaunch
import proofs.«127681_g1580547969797_cont_week2b_876_5_alg».proof.Proof.KILaunch
import proofs.«127681_g1580547969797_cont_week2b_876_5_alg».proof.Proof.KIValue
import proofs.«127681_g1580547969797_cont_week2b_876_5_alg».proof.Proof.RefSide

noncomputable section

namespace Cert.Proof

open Idealize.ShloMosaic Idealize.ShloMosaic.TcCoe Idealize.SL.Sem

/-- The word-level kernel runs and leaves its four arguments as launched. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- Both idealized programs end with the layer's output `G` of the four arguments: the kernel's 25 output blocks tile
    the result array and each row is its adjacency row against the support plus the bias; the reference's two products
    and broadcast add read at an index are the same double sum. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.HandValue.final m c), (h c).2⟩)
      (Cert.KernelIdeal.Hand.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
